-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1 : Shape := ⟨2, ![4096, 1]⟩
abbrev S4096x64 : Shape := ⟨2, ![4096, 64]⟩
abbrev S64x4096 : Shape := ⟨2, ![64, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  main_v18

def fn {F : FTy → Type} [FloatOps F] (main_arg0 : FVec F S8192x4096 .f32) (main_arg1 : FVec F S4096x1 .f32) (main_arg2 : FVec F S4096x64 .f32) (main_arg3 : FVec F S64x4096 .f32) (main_arg4 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_v13 main_v16
-- ==== Kernel.lean ====
abbrev S8192x4096 : Shape := ⟨2, ![8192, 4096]⟩
abbrev S4096x1 : Shape := ⟨2, ![4096, 1]⟩
abbrev S4096x64 : Shape := ⟨2, ![4096, 64]⟩
abbrev S64x4096 : Shape := ⟨2, ![64, 4096]⟩
abbrev S4096x4096 : Shape := ⟨2, ![4096, 4096]⟩
abbrev S2048x1024 : Shape := ⟨2, ![2048, 1024]⟩
abbrev S1024x1024 : Shape := ⟨2, ![1024, 1024]⟩
abbrev S1024x1 : Shape := ⟨2, ![1024, 1]⟩
abbrev S1024x64 : Shape := ⟨2, ![1024, 64]⟩
abbrev S64x1024 : Shape := ⟨2, ![64, 1024]⟩
abbrev S2048x64 : Shape := ⟨2, ![2048, 64]⟩
abbrev S1x1024 : Shape := ⟨2, ![1, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S4096x64, .f32⟩
  | .hbm, ⟨3, _⟩ => ⟨S64x4096, .f32⟩
  | .hbm, ⟨4, _⟩ => ⟨S4096x4096, .i32⟩
  | .hbm, ⟨5, _⟩ => ⟨S8192x4096, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1024x64, .f32⟩
  | .local _ .vmem, ⟨7, _⟩ => ⟨S1024x64, .f32⟩
  | .local _ .vmem, ⟨8, _⟩ => ⟨S64x1024, .f32⟩
  | .local _ .vmem, ⟨9, _⟩ => ⟨S64x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S64x1024_S64x1024_0_0 : ∀ a, (![0, 0] : Fin 2 → Nat) a + S64x1024.size a ≤ S64x1024.size a
  h_S64x1024 : 0 < S64x1024.numel
  inb_S1024x1_S1024x1_0_0 : ∀ a, (![0, 0] : Fin 2 → Nat) a + S1024x1.size a ≤ S1024x1.size a
  h_S1024x1 : 0 < S1024x1.numel
  shapeCasts_S1024x1_S1x1024 : S1024x1.ShapeCasts S1x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  dot_S2048x1024_S1024x1024_S2048x1024_1_1_0_0_n_n_wf : DotDims.WF S2048x1024 S1024x1024 S2048x1024 [1] [1] [0] [0] [] []
  dot_S2048x1024_S64x1024_S2048x64_1_1_0_0_n_n_wf : DotDims.WF S2048x1024 S64x1024 S2048x64 [1] [1] [0] [0] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S4096x64.size a
  hwx0_3 : ∀ i : grid0.Coords, EltTy.bits .f32 = 32 ∨ (Rect.block (s := S4096x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x4096.size a
  hwx0_4 : ∀ i : grid0.Coords, EltTy.bits .f32 = 32 ∨ (Rect.block (s := S64x4096) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x1 : Shape := ⟨2, ![4096, 1]⟩
abbrev S4096x64 : Shape := ⟨2, ![4096, 64]⟩
abbrev S64x4096 : Shape := ⟨2, ![64, 4096]⟩
abbrev S4096x4096 : Shape := ⟨2, ![4096, 4096]⟩
abbrev S8192x64 : Shape := ⟨2, ![8192, 64]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S4096x64, .f32⟩
  | .hbm, ⟨3, _⟩ => ⟨S64x4096, .f32⟩
  | .hbm, ⟨4, _⟩ => ⟨S4096x4096, .i32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S4096x64, .f32⟩
  | .hbm, ⟨11, _⟩ => ⟨S8192x64, .f32⟩
  | .hbm, ⟨12, _⟩ => ⟨S64x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  transposes_S4096x4096_S4096x4096_1_0 : S4096x4096.Transposes [1, 0] S4096x4096
  transposes_S64x4096_S4096x64_1_0 : S64x4096.Transposes [1, 0] S4096x64
  transposes_S4096x64_S64x4096_1_0 : S4096x64.Transposes [1, 0] S64x4096
  dot_S8192x4096_S4096x4096_S8192x4096_1_0_0_1_n_n_wf : DotDims.WF S8192x4096 S4096x4096 S8192x4096 [1] [0] [0] [1] [] []
  dot_S8192x4096_S4096x64_S8192x64_1_0_0_1_n_n_wf : DotDims.WF S8192x4096 S4096x64 S8192x64 [1] [0] [0] [1] [] []
  dot_S8192x64_S64x4096_S8192x4096_1_0_0_1_n_n_wf : DotDims.WF S8192x64 S64x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf

class Facts : Prop extends Facts₀ where

variable [Facts]
-- ==== Proof.KernelPieces.lean ====
/-
  The kernel body run once per control case: what each case leaves in the two accumulators carried across the
  reduction axis, and in the output block, written as the body's own arithmetic applied to the blocks it loaded.
-/
import proofs.«165027_j39822936768839_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## What each control case leaves, as the body's arithmetic

Three cases over the reduction coordinate `k`: the first chunk (`k = 0`: both accumulators are zeroed, then the
chunk is added), a middle chunk (added to what the point before left), and the last chunk (`k = 3`: added, then the
output block is formed from the two finished accumulators). -/

/-- First chunk: the main accumulator ends at `0 + x_k · Q_kᵀ`. -/
theorem first_main (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : cond0_0 i) (hc1 : ¬cond0_1 i) (x0 : Vec F S2048x1024 .f32) (x1 : Vec F S1024x1024 .i32) (x2 : Vec F S1024x1 .f32) (x3 : Vec F S1024x64 .f32) (x4 : Vec F S64x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1024) hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- First chunk: the low-rank accumulator ends at `0 + x_k · D_kᵀ`. -/
theorem first_low (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : cond0_0 i) (hc1 : ¬cond0_1 i) (x0 : Vec F S2048x1024 .f32) (x1 : Vec F S1024x1024 .i32) (x2 : Vec F S1024x1 .f32) (x3 : Vec F S1024x64 .f32) (x4 : Vec F S64x1024 .f32) :
    sout0_A_1 c i arg3 harg3 arg4 harg4 arg5 harg5 arg6 harg6 arg7 harg7 arg8 harg8 arg9 harg9 arg10 harg10 hc0 hc1 x0 x1 x2 x3 x4 = k0_pay5 x0 x4 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x64) hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- Middle chunk: the main accumulator gains `x_k · Q_kᵀ`. -/
theorem mid_main (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : ¬cond0_0 i) (hc1 : ¬cond0_1 i) (x0 : Vec F S2048x1024 .f32) (x1 : Vec F S1024x1024 .i32) (x2 : Vec F S1024x1 .f32) (x3 : Vec F S1024x64 .f32) (x4 : Vec F S64x1024 .f32) (xs0 : Vec F S2048x1024 .f32) (xs1 : Vec F S2048x64 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- Middle chunk: the low-rank accumulator gains `x_k · D_kᵀ`. -/
theorem mid_low (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : ¬cond0_0 i) (hc1 : ¬cond0_1 i) (x0 : Vec F S2048x1024 .f32) (x1 : Vec F S1024x1024 .i32) (x2 : Vec F S1024x1 .f32) (x3 : Vec F S1024x64 .f32) (x4 : Vec F S64x1024 .f32) (xs0 : Vec F S2048x1024 .f32) (xs1 : Vec F S2048x64 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x4 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- Last chunk: the main accumulator gains `x_k · Q_kᵀ`. -/
theorem last_main (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : ¬cond0_0 i) (hc1 : cond0_1 i) (x0 : Vec F S2048x1024 .f32) (x1 : Vec F S1024x1024 .i32) (x2 : Vec F S1024x1 .f32) (x3 : Vec F S1024x64 .f32) (x4 : Vec F S64x1024 .f32) (xs0 : Vec F S2048x1024 .f32) (xs1 : Vec F S2048x64 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- Last chunk: the low-rank accumulator gains `x_k · D_kᵀ`. -/
theorem last_low (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : ¬cond0_0 i) (hc1 : cond0_1 i) (x0 : Vec F S2048x1024 .f32) (x1 : Vec F S1024x1024 .i32) (x2 : Vec F S1024x1 .f32) (x3 : Vec F S1024x64 .f32) (x4 : Vec F S64x1024 .f32) (xs0 : Vec F S2048x1024 .f32) (xs1 : Vec F S2048x64 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x4 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

/-- Last chunk: the output block is the finished main accumulator scaled per output channel, plus the finished
    low-rank accumulator against `U`'s block. -/
theorem last_out (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S64x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x64 .f32) (harg10 : arg10.IsWhole) (hc0 : ¬cond0_0 i) (hc1 : cond0_1 i) (x0 : Vec F S2048x1024 .f32) (x1 : Vec F S1024x1024 .i32) (x2 : Vec F S1024x1 .f32) (x3 : Vec F S1024x64 .f32) (x4 : Vec F S64x1024 .f32) (xs0 : Vec F S2048x1024 .f32) (xs1 : Vec F S2048x64 .f32) :
    out0_C_5 c i arg3 harg3 arg4 harg4 arg5 harg5 arg6 harg6 arg7 harg7 arg8 harg8 arg9 harg9 arg10 harg10 hc0 hc1 x0 x1 x2 x3 x4 xs0 xs1 = k0_pay6 x2 (k0_pay4 x0 x1 xs0) x3 (k0_pay5 x0 x4 xs1) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S2048x1024) hz, View.ld_unit_zero (S := S1024x1024) hz, View.ld_unit_zero (S := S1024x1) hz, View.ld_unit_zero (S := S1024x64) hz, View.ld_unit_zero (S := S64x1024) hz, View.ld_unit_zero (S := S2048x64) hz, View.readCov_unit_zero (S := S2048x1024) _ hz, View.readCov_unit_zero (S := S2048x64) _ hz]

end Cert.KernelIdeal.Pieces

end
-- ==== Proof.Algebra.lean ====
/-
  The arithmetic that joins the two programs, free of any program text.

  * A sum over the 4096 contraction positions is the sum, over the four consecutive chunks of 1024 positions,
    of the chunk's own sum (position `1024 * s + k` is position `k` of chunk `s`).
  * On the extended reals a real factor moves across a finite sum of real products:
    `(∑ i, x i * q i) * s = ∑ i, x i * (q i * s)` once every `x i`, every `q i` and `s` are real numbers.
    (With an infinite term the two sides can differ, so the hypothesis is needed.)
-/
import Idealize.ShloMosaic.PureOps.Ideal.Laws

noncomputable section

namespace Cert.Algebra

open scoped BigOperators

/-- Position `1024 * s + k` of the contraction axis, as chunk `s` and offset `k`. -/
def chunkEquiv : Fin 4 × Fin 1024 ≃ Fin 4096 where
  toFun x := ⟨1024 * x.1.val + x.2.val, by have h1 := x.1.isLt; have h2 := x.2.isLt; omega⟩
  invFun i := (⟨i.val / 1024, by have h := i.isLt; omega⟩, ⟨i.val % 1024, Nat.mod_lt _ (by decide)⟩)
  left_inv x := by
    obtain ⟨⟨s, hs⟩, ⟨k, hk⟩⟩ := x
    refine Prod.ext (Fin.ext ?_) (Fin.ext ?_)
    · show (1024 * s + k) / 1024 = s; omega
    · show (1024 * s + k) % 1024 = k; omega
  right_inv i := by
    apply Fin.ext
    show 1024 * (i.val / 1024) + i.val % 1024 = i.val
    omega

theorem chunkEquiv_val (s : Fin 4) (k : Fin 1024) : (chunkEquiv (s, k)).val = 1024 * s.val + k.val := rfl

/-- A sum over all 4096 positions, chunk by chunk. -/
theorem sum_chunks {β : Type*} [AddCommMonoid β] (g : Fin 4096 → β) :
    ∑ s : Fin 4, ∑ k : Fin 1024, g (chunkEquiv (s, k)) = ∑ i : Fin 4096, g i :=
  (Fintype.sum_prod_type' (fun s k => g (chunkEquiv (s, k)))).symm.trans (Equiv.sum_comp chunkEquiv g)

/-- The coercion of the reals into the extended reals commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real factor moves across a finite sum of products of reals. -/
theorem sum_mul_real {ι : Type*} [Fintype ι] (x : ι → EReal) (q : ι → ℝ) (s : EReal)
    (hx : ∀ i, ∃ r : ℝ, x i = (r : EReal)) (hs : ∃ r : ℝ, s = (r : EReal)) :
    (∑ i, x i * (q i : EReal)) * s = ∑ i, x i * ((q i : EReal) * s) := by
  choose xr hxr using hx
  obtain ⟨sr, rfl⟩ := hs
  simp only [hxr, ← EReal.coe_mul]
  rw [← coe_sum, ← coe_sum, ← EReal.coe_mul, Finset.sum_mul]
  exact congrArg _ (Finset.sum_congr rfl fun i _ => by ring)

end Cert.Algebra

end
-- ==== Proof.Spec.lean ====
/-
  What both programs compute, as functions of the five argument arrays, index by index, on the extended reals:

      out[n, o] = (x · Qᵀ)[n, o] * scales[o]  +  ((x · Dᵀ) · Uᵀ)[n, o]

  with `Q` an integer matrix read as real numbers. Two spellings of it:

  * `kernelResult`: the contraction over the 4096 input features is taken chunk by chunk (four chunks of 1024),
    and the per-output-channel scale multiplies the finished sum;
  * `refResult`: one sum over all 4096 features, each term already scaled (the weight is dequantized first).

  They agree (`kernelResult_eq_refResult`) once the activations and the scales are real numbers: the integer weights
  always are, and then the scale distributes over the sum.
-/
import Idealize.ShloMosaic.Lib.ValueIdx
import proofs.«165027_j39822936768839_1_alg».proof.Proof.Algebra

noncomputable section

namespace Cert.Spec

open Idealize.ShloMosaic Idealize.ShloMosaic.ValueIdx
open scoped BigOperators

abbrev SX : Shape := ⟨2, ![8192, 4096]⟩
abbrev SS : Shape := ⟨2, ![4096, 1]⟩
abbrev SU : Shape := ⟨2, ![4096, 64]⟩
abbrev SD : Shape := ⟨2, ![64, 4096]⟩
abbrev SQ : Shape := ⟨2, ![4096, 4096]⟩

/-- Entry `(a, b)` of a matrix, with natural-number coordinates (zero outside the matrix), so that a block's offset
    and a position inside the block simply add. -/
def at2 {α : Type} [Zero α] {n0 n1 : Nat} (A : (⟨2, ![n0, n1]⟩ : Shape).Idx → α) (a b : Nat) : α :=
  if h : a < n0 ∧ b < n1 then A (ix2 ⟨a, h.1⟩ ⟨b, h.2⟩) else 0

theorem at2_ix2 {α : Type} [Zero α] {n0 n1 : Nat} (A : (⟨2, ![n0, n1]⟩ : Shape).Idx → α) (a : Fin n0) (b : Fin n1) :
    at2 A a.val b.val = A (ix2 a b) := by
  unfold at2
  rw [dif_pos ⟨a.isLt, b.isLt⟩]

theorem at2_of_lt {α : Type} [Zero α] {n0 n1 : Nat} (A : (⟨2, ![n0, n1]⟩ : Shape).Idx → α) (a b : Nat)
    (ha : a < n0) (hb : b < n1) : at2 A a b = A (ix2 ⟨a, ha⟩ ⟨b, hb⟩) := by
  unfold at2
  rw [dif_pos ⟨ha, hb⟩]

/-- Chunk `s` of row `a` of `x` against row `b` of the integer matrix. -/
def mainChunk (X : SX.Idx → EReal) (Q : SQ.Idx → BitVec 32) (a b s : Nat) : EReal :=
  ∑ k : Fin 1024, at2 X a (1024 * s + k.val) * (((at2 Q b (1024 * s + k.val)).toInt : ℝ) : EReal)

/-- Chunk `s` of row `a` of `x` against row `r` of `D`. -/
def lowChunk (X : SX.Idx → EReal) (D : SD.Idx → EReal) (a r s : Nat) : EReal :=
  ∑ k : Fin 1024, at2 X a (1024 * s + k.val) * at2 D r (1024 * s + k.val)

/-- The kernel's spelling, at row `a` and output channel `b`. -/
def kernelAt (X : SX.Idx → EReal) (S : SS.Idx → EReal) (U : SU.Idx → EReal) (D : SD.Idx → EReal) (Q : SQ.Idx → BitVec 32)
    (a b : Nat) : EReal :=
  (∑ s ∈ Finset.range 4, mainChunk X Q a b s) * at2 S b 0
    + ∑ r : Fin 64, (∑ s ∈ Finset.range 4, lowChunk X D a r.val s) * at2 U b r.val

def kernelResult (X : SX.Idx → EReal) (S : SS.Idx → EReal) (U : SU.Idx → EReal) (D : SD.Idx → EReal) (Q : SQ.Idx → BitVec 32) :
    SX.Idx → EReal := fun j => kernelAt X S U D Q (j 0).val (j 1).val

/-- The reference's spelling, at row `n` and output channel `o`. -/
def refAt (X : SX.Idx → EReal) (S : SS.Idx → EReal) (U : SU.Idx → EReal) (D : SD.Idx → EReal) (Q : SQ.Idx → BitVec 32)
    (n : Fin 8192) (o : Fin 4096) : EReal :=
  (∑ i : Fin 4096, X (ix2 n i) * ((((Q (ix2 o i)).toInt : ℝ) : EReal) * S (ix2 o (0 : Fin 1))))
    + ∑ r : Fin 64, (∑ i : Fin 4096, X (ix2 n i) * D (ix2 r i)) * U (ix2 o r)

def refResult (X : SX.Idx → EReal) (S : SS.Idx → EReal) (U : SU.Idx → EReal) (D : SD.Idx → EReal) (Q : SQ.Idx → BitVec 32) :
    SX.Idx → EReal := fun j => refAt X S U D Q (j 0) (j 1)

/-- Four chunk sums of a row make the row's whole sum. -/
theorem sum_range_chunks (g : Nat → EReal) :
    ∑ s ∈ Finset.range 4, ∑ k : Fin 1024, g (1024 * s + k.val) = ∑ i : Fin 4096, g i.val := by
  rw [← Fin.sum_univ_eq_sum_range (fun s => ∑ k : Fin 1024, g (1024 * s + k.val)) 4]
  exact Cert.Algebra.sum_chunks (fun i => g i.val)

theorem kernelResult_eq_refResult (X : SX.Idx → EReal) (S : SS.Idx → EReal) (U : SU.Idx → EReal) (D : SD.Idx → EReal)
    (Q : SQ.Idx → BitVec 32) (hX : ∀ j, ∃ r : ℝ, X j = (r : EReal)) (hS : ∀ j, ∃ r : ℝ, S j = (r : EReal)) :
    kernelResult X S U D Q = refResult X S U D Q := by
  funext j
  obtain ⟨n, o, rfl⟩ : ∃ (n : Fin 8192) (o : Fin 4096), j = ix2 n o := ⟨j 0, j 1, eq_ix2 j⟩
  show kernelAt X S U D Q n.val o.val = refAt X S U D Q n o
  unfold kernelAt refAt
  have hmain : ∑ s ∈ Finset.range 4, mainChunk X Q n.val o.val s
      = ∑ i : Fin 4096, X (ix2 n i) * (((Q (ix2 o i)).toInt : ℝ) : EReal) := by
    unfold mainChunk
    rw [sum_range_chunks (fun i => at2 X n.val i * (((at2 Q o.val i).toInt : ℝ) : EReal))]
    exact Finset.sum_congr rfl fun i _ => by rw [at2_ix2, at2_ix2]
  have hlow : ∀ r : Fin 64, ∑ s ∈ Finset.range 4, lowChunk X D n.val r.val s = ∑ i : Fin 4096, X (ix2 n i) * D (ix2 r i) := by
    intro r
    unfold lowChunk
    rw [sum_range_chunks (fun i => at2 X n.val i * at2 D r.val i)]
    exact Finset.sum_congr rfl fun i _ => by rw [at2_ix2, at2_ix2]
  rw [hmain, show at2 S o.val 0 = S (ix2 o (0 : Fin 1)) from at2_ix2 S o (0 : Fin 1),
    Cert.Algebra.sum_mul_real (fun i => X (ix2 n i)) (fun i => ((Q (ix2 o i)).toInt : ℝ)) _ (fun i => hX _) (hS _)]
  congr 1
  exact Finset.sum_congr rfl fun r _ => by rw [hlow r, at2_ix2]

end Cert.Spec

end
-- ==== Proof.KernelBlocks.lean ====
/-
  Where each window's block sits in its array. The grid point `t` (0 … 63, the reduction coordinate fastest) is
  row block `t / 16`, output-channel block `(t / 4) % 4`, reduction chunk `t % 4`; entry `(a, b)` of a block is the
  array's entry at the block's offset plus `(a, b)`.
-/
import proofs.«165027_j39822936768839_1_alg».proof.Proof.Gen.KernelIdeal.Frame
import proofs.«165027_j39822936768839_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-! ## The five argument arrays, as functions on their literal index sets -/

abbrev argX (c : Dev nD) : Cert.Spec.SX.Idx → EReal := m ((c : Thread nD τ).loc main_arg0)
abbrev argS (c : Dev nD) : Cert.Spec.SS.Idx → EReal := m ((c : Thread nD τ).loc main_arg1)
abbrev argU (c : Dev nD) : Cert.Spec.SU.Idx → EReal := m ((c : Thread nD τ).loc main_arg2)
abbrev argD (c : Dev nD) : Cert.Spec.SD.Idx → EReal := m ((c : Thread nD τ).loc main_arg3)
abbrev argQ (c : Dev nD) : Cert.Spec.SQ.Idx → BitVec 32 := m ((c : Thread nD τ).loc main_arg4)

/-! ## The index maps, decided once over the 64 grid points -/

theorem idx0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx1 : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx2 : ∀ t : Fin cfg0.N, win0_2.index t (0 : Fin 2) = t.val / 4 % 4 ∧ win0_2.index t (1 : Fin 2) = 0 :=
  (by decide +kernel : ∀ t : Fin grid0.N, win0_2.index t (0 : Fin 2) = t.val / 4 % 4 ∧ win0_2.index t (1 : Fin 2) = 0)
theorem idx3 : ∀ t : Fin cfg0.N, win0_3.index t (0 : Fin 2) = t.val / 4 % 4 ∧ win0_3.index t (1 : Fin 2) = 0 :=
  (by decide +kernel : ∀ t : Fin grid0.N, win0_3.index t (0 : Fin 2) = t.val / 4 % 4 ∧ win0_3.index t (1 : Fin 2) = 0)
theorem idx4 : ∀ t : Fin cfg0.N, win0_4.index t (0 : Fin 2) = 0 ∧ win0_4.index t (1 : Fin 2) = t.val % 4 :=
  (by decide +kernel : ∀ t : Fin grid0.N, win0_4.index t (0 : Fin 2) = 0 ∧ win0_4.index t (1 : Fin 2) = t.val % 4)
theorem idx5 : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

/-! ## The input blocks, entry by entry -/

/-- `x`'s block: rows of row block `t / 16`, features of chunk `t % 4`. -/
theorem xblk_apply (c : Dev nD) (t : Fin cfg0.N) (a : Fin 2048) (b : Fin 1024) :
    (iblk (F := Ideal) m c 0 t : Vec Ideal S2048x1024 .f32) (ix2 a b)
      = Cert.Spec.at2 (argX m c) (2048 * (t.val / 16) + a.val) (1024 * (t.val % 4) + b.val) := by
  have hi := idx0 t
  have ht : t.val < 64 := lt_of_lt_of_eq t.isLt N_0
  have ha := a.isLt
  have hb := b.isLt
  rw [Cert.Spec.at2_of_lt _ _ _ (by omega) (by omega)]
  unfold iblk
  rw [View.read_apply]
  show V m c main_arg0 _ = m ((c : Thread nD τ).loc main_arg0) _
  unfold V
  congr 1
  funext d
  apply Fin.ext
  match d with
  | ⟨0, _⟩ => show win0_0.index t 0 * 2048 + 1 * a.val = 2048 * (t.val / 16) + a.val; rw [hi.1]; omega
  | ⟨1, _⟩ => show win0_0.index t 1 * 1024 + 1 * b.val = 1024 * (t.val % 4) + b.val; rw [hi.2]; omega

/-- `Q`'s block: output channels of block `(t / 4) % 4`, features of chunk `t % 4`. -/
theorem qblk_apply (c : Dev nD) (t : Fin cfg0.N) (a : Fin 1024) (b : Fin 1024) :
    (iblk (F := Ideal) m c 1 t : Vec Ideal S1024x1024 .i32) (ix2 a b)
      = Cert.Spec.at2 (argQ m c) (1024 * (t.val / 4 % 4) + a.val) (1024 * (t.val % 4) + b.val) := by
  have hi := idx1 t
  have ht : t.val < 64 := lt_of_lt_of_eq t.isLt N_0
  have ha := a.isLt
  have hb := b.isLt
  rw [Cert.Spec.at2_of_lt _ _ _ (by omega) (by omega)]
  unfold iblk
  rw [View.read_apply]
  show V m c main_arg4 _ = m ((c : Thread nD τ).loc main_arg4) _
  unfold V
  congr 1
  funext d
  apply Fin.ext
  match d with
  | ⟨0, _⟩ => show win0_1.index t 0 * 1024 + 1 * a.val = 1024 * (t.val / 4 % 4) + a.val; rw [hi.1]; omega
  | ⟨1, _⟩ => show win0_1.index t 1 * 1024 + 1 * b.val = 1024 * (t.val % 4) + b.val; rw [hi.2]; omega

/-- `scales`' block: output channels of block `(t / 4) % 4`. -/
theorem sblk_apply (c : Dev nD) (t : Fin cfg0.N) (a : Fin 1024) (b : Fin 1) :
    (iblk (F := Ideal) m c 2 t : Vec Ideal S1024x1 .f32) (ix2 a b)
      = Cert.Spec.at2 (argS m c) (1024 * (t.val / 4 % 4) + a.val) (0 + b.val) := by
  have hi := idx2 t
  have ht : t.val < 64 := lt_of_lt_of_eq t.isLt N_0
  have ha := a.isLt
  have hb := b.isLt
  rw [Cert.Spec.at2_of_lt _ _ _ (by omega) (by omega)]
  unfold iblk
  rw [View.read_apply]
  show V m c main_arg1 _ = m ((c : Thread nD τ).loc main_arg1) _
  unfold V
  congr 1
  funext d
  apply Fin.ext
  match d with
  | ⟨0, _⟩ => show win0_2.index t 0 * 1024 + 1 * a.val = 1024 * (t.val / 4 % 4) + a.val; rw [hi.1]; omega
  | ⟨1, _⟩ => show win0_2.index t 1 * 1 + 1 * b.val = 0 + b.val; rw [hi.2]; omega

/-- `U`'s block: output channels of block `(t / 4) % 4`, all 64 ranks. -/
theorem ublk_apply (c : Dev nD) (t : Fin cfg0.N) (a : Fin 1024) (b : Fin 64) :
    (iblk (F := Ideal) m c 3 t : Vec Ideal S1024x64 .f32) (ix2 a b)
      = Cert.Spec.at2 (argU m c) (1024 * (t.val / 4 % 4) + a.val) (0 + b.val) := by
  have hi := idx3 t
  have ht : t.val < 64 := lt_of_lt_of_eq t.isLt N_0
  have ha := a.isLt
  have hb := b.isLt
  rw [Cert.Spec.at2_of_lt _ _ _ (by omega) (by omega)]
  unfold iblk
  rw [View.read_apply]
  show V m c main_arg2 _ = m ((c : Thread nD τ).loc main_arg2) _
  unfold V
  congr 1
  funext d
  apply Fin.ext
  match d with
  | ⟨0, _⟩ => show win0_3.index t 0 * 1024 + 1 * a.val = 1024 * (t.val / 4 % 4) + a.val; rw [hi.1]; omega
  | ⟨1, _⟩ => show win0_3.index t 1 * 64 + 1 * b.val = 0 + b.val; rw [hi.2]; omega

/-- `D`'s block: all 64 ranks, features of chunk `t % 4`. -/
theorem dblk_apply (c : Dev nD) (t : Fin cfg0.N) (a : Fin 64) (b : Fin 1024) :
    (iblk (F := Ideal) m c 4 t : Vec Ideal S64x1024 .f32) (ix2 a b)
      = Cert.Spec.at2 (argD m c) (0 + a.val) (1024 * (t.val % 4) + b.val) := by
  have hi := idx4 t
  have ht : t.val < 64 := lt_of_lt_of_eq t.isLt N_0
  have ha := a.isLt
  have hb := b.isLt
  rw [Cert.Spec.at2_of_lt _ _ _ (by omega) (by omega)]
  unfold iblk
  rw [View.read_apply]
  show V m c main_arg3 _ = m ((c : Thread nD τ).loc main_arg3) _
  unfold V
  congr 1
  funext d
  apply Fin.ext
  match d with
  | ⟨0, _⟩ => show win0_4.index t 0 * 64 + 1 * a.val = 0 + a.val; rw [hi.1]; omega
  | ⟨1, _⟩ => show win0_4.index t 1 * 1024 + 1 * b.val = 1024 * (t.val % 4) + b.val; rw [hi.2]; omega

end Cert.KernelIdeal.Blocks

end
-- ==== Proof.KernelPayloads.lean ====
import proofs.«165027_j39822936768839_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel body's arithmetic, read at an index

At the ideal values (floats are extended reals, the format changes are the identity, a signed word converts to the
real number it denotes, and a product into a zero accumulator is the plain sum of products) each of the body's
stored values is, at an index `(p, r)`, a closed expression in the operands at indices: a zero, an accumulator plus
a row-by-row sum of products, or a scaled accumulator plus such a sum.
-/

noncomputable section

open scoped BigOperators

namespace Cert.KernelIdeal.Payloads

open Idealize.ShloMosaic Idealize.ShloMosaic.ValueIdx Cert.KernelIdeal Cert.KernelIdeal.Gen

/-! ## The three products' dimension numbers, axis by axis

Each of the body's three `tpu.matmul`s contracts axis 1 of BOTH operands and keeps axis 0 of each: the left
operand is read at (output row, contraction position), the right at (output column, contraction position). -/

/-- The activations times the integer weights: the left operand's kept axis 0 carries the output's row. -/
theorem lhs4_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- The activations times the integer weights: the left operand's axis 1 is the contracted one. -/
theorem lhs4_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- The activations times the integer weights: the right operand's kept axis 0 carries the output's column. -/
theorem rhs4_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- The activations times the integer weights: the right operand's axis 1 is the contracted one. -/
theorem rhs4_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The activations times the integer weights, into the zero accumulator, read at `(p, r)`: the sum over the shared axis of the left operand's
    row `p` times the right operand's row `r` (both operands carry the contracted axis second, so the product is
    `A · Bᵀ`). The contraction index is re-indexed by its one coordinate. -/
theorem mm4_apply {φ₁ φ₂ : FTy} (a : FVec Ideal S2048x1024 φ₁) (b : FVec Ideal S1024x1024 φ₂) (p : Fin 2048) (r : Fin 1024) :
    FloatOps.matmul dot_S2048x1024_S1024x1024_S2048x1024_1_1_0_0_n_n none a b (constant (F := Ideal) S2048x1024 .f32 0x00000000#32) (ix2 p r)
      = ∑ k : Fin 1024, a (ix2 p k) * b (ix2 r k) := by
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p r) ((contrEquiv1 dot_S2048x1024_S1024x1024_S2048x1024_1_1_0_0_n_n 1024 rfl rfl).symm k) = ix2 p k := funext fun ax => Fin.ext (by
    match ax with
    | ⟨0, _⟩ => exact lhs4_0 _ _
    | ⟨1, _⟩ => exact (lhs4_1 _ _).trans hk)
  have er : dot_S2048x1024_S1024x1024_S2048x1024_1_1_0_0_n_n.rhsIdx (ix2 p r) ((contrEquiv1 dot_S2048x1024_S1024x1024_S2048x1024_1_1_0_0_n_n 1024 rfl rfl).symm k) = ix2 r k := funext fun ax => Fin.ext (by
    match ax with
    | ⟨0, _⟩ => exact rhs4_0 _ _
    | ⟨1, _⟩ => exact (rhs4_1 _ _).trans hk)
  rw [el, er]

/-- The activations times the down projection: the left operand's kept axis 0 carries the output's row. -/
theorem lhs5_0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
/-- The activations times the down projection: the left operand's axis 1 is the contracted one. -/
theorem lhs5_1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
/-- The activations times the down projection: the right operand's kept axis 0 carries the output's column. -/
theorem rhs5_0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
/-- The activations times the down projection: the right operand's axis 1 is the contracted one. -/
theorem rhs5_1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q

/-- The activations times the down projection, into the zero accumulator, read at `(p, r)`: the sum over the shared axis of the left operand's
    row `p` times the right operand's row `r` (both operands carry the contracted axis second, so the product is
    `A · Bᵀ`). The contraction index is re-indexed by its one coordinate. -/
theorem mm5_apply {φ₁ φ₂ : FTy} (a : FVec Ideal S2048x1024 φ₁) (b : FVec Ideal S64x1024 φ₂) (p : Fin 2048) (r : Fin 64) :
    FloatOps.matmul dot_S2048x1024_S64x1024_S2048x64_1_1_0_0_n_n none a b (constant (F := Ideal) S2048x64 .f32 0x00000000#32) (ix2 p r)
      = ∑ k : Fin 1024, a (ix2 p k) * b (ix2 r k) := by
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 p r) ((contrEquiv1 dot_S2048x1024_S64x1024_S2048x64_1_1_0_0_n_n 1024 rfl rfl).symm k) = ix2 p k := funext fun ax => Fin.ext (by
    match ax with
    | ⟨0, _⟩ => exact lhs5_0 _ _
    | ⟨1, _⟩ => exact (lhs5_1 _ _).trans hk)
  have er : dot_S2048x1024_S64x1024_S2048x64_1_1_0_0_n_n.rhsIdx (ix2 p r) ((contrEquiv1 dot_S2048x1024_S64x1024_S2048x64_1_1_0_0_n_n 1024 rfl rfl).symm k) = ix2 r k := funext fun ax => Fin.ext (by
    match ax with
    | ⟨0, _⟩ => exact rhs5_0 _ _
    | ⟨1, _⟩ => exact (rhs5_1 _ _).trans hk)
  rw [el, er]

/-- The low-rank activations times the up projection: the left operand's kept axis 0 carries the output's row. -/
theorem lhs6_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
/-- The low-rank activations times the up projection: the left operand's axis 1 is the contracted one. -/
theorem lhs6_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
/-- The low-rank activations times the up projection: the right operand's kept axis 0 carries the output's column. -/
theorem rhs6_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
/-- The low-rank activations times the up projection: the right operand's axis 1 is the contracted one. -/
theorem rhs6_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- The low-rank activations times the up projection, into the zero accumulator, read at `(p, r)`: the sum over the shared axis of the left operand's
    row `p` times the right operand's row `r` (both operands carry the contracted axis second, so the product is
    `A · Bᵀ`). The contraction index is re-indexed by its one coordinate. -/
theorem mm6_apply {φ₁ φ₂ : FTy} (a : FVec Ideal S2048x64 φ₁) (b : FVec Ideal S1024x64 φ₂) (p : Fin 2048) (r : Fin 1024) :
    FloatOps.matmul dot_S2048x64_S1024x64_S2048x1024_1_1_0_0_n_n none a b (constant (F := Ideal) S2048x1024 .f32 0x00000000#32) (ix2 p r)
      = ∑ k : Fin 64, a (ix2 p k) * b (ix2 r k) := by
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 p r) ((contrEquiv1 dot_S2048x64_S1024x64_S2048x1024_1_1_0_0_n_n 64 rfl rfl).symm k) = ix2 p k := funext fun ax => Fin.ext (by
    match ax with
    | ⟨0, _⟩ => exact lhs6_0 _ _
    | ⟨1, _⟩ => exact (lhs6_1 _ _).trans hk)
  have er : dot_S2048x64_S1024x64_S2048x1024_1_1_0_0_n_n.rhsIdx (ix2 p r) ((contrEquiv1 dot_S2048x64_S1024x64_S2048x1024_1_1_0_0_n_n 64 rfl rfl).symm k) = ix2 r k := funext fun ax => Fin.ext (by
    match ax with
    | ⟨0, _⟩ => exact rhs6_0 _ _
    | ⟨1, _⟩ => exact (rhs6_1 _ _).trans hk)
  rw [el, er]

/-! ## A column read as a row -/

/-- A column `[a, 1]` cast to a row `[1, a]` reads, at `(u, i)`, the column at `(i, 0)`: both sit at row-major
    position `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-! ## The payloads at an index -/

/-- The first accumulator's initial value: the zero splat, `0` at every index. -/
theorem pay1_apply (j : S2048x1024.Idx) : k0_pay1 (F := Ideal) j = 0 := by
  unfold k0_pay1
  rw [shapeCast_self]
  exact Ideal.ofBits_zero_f32

/-- The second accumulator's initial value: the zero splat, `0` at every index. -/
theorem pay2_apply (j : S2048x64.Idx) : k0_pay2 (F := Ideal) j = 0 := by
  unfold k0_pay2
  rw [shapeCast_self]
  exact Ideal.ofBits_zero_f32

/-- One step of the main accumulation: the accumulator plus the activations' row `p` against the integer weights'
    row `r`, each weight read as the real number it denotes (the format changes are the identity at the ideal
    values). -/
theorem pay4_apply (x : Vec Ideal S2048x1024 .f32) (q : Vec Ideal S1024x1024 .i32) (acc : Vec Ideal S2048x1024 .f32) (p : Fin 2048) (r : Fin 1024) :
    k0_pay4 (F := Ideal) x q acc (ix2 p r) = acc (ix2 p r) + ∑ k : Fin 1024, x (ix2 p k) * (((q (ix2 r k)).toInt : ℝ) : EReal) := by
  unfold k0_pay4 k0_pay3
  rw [shapeCast_self, addf_apply]
  refine congrArg (acc (ix2 p r) + ·) ?_
  exact (mm4_apply _ _ p r).trans (Finset.sum_congr rfl fun k _ => rfl)

/-- One step of the low-rank accumulation: the accumulator plus the activations' row `p` against the down
    projection's row `r`. -/
theorem pay5_apply (x : Vec Ideal S2048x1024 .f32) (d : Vec Ideal S64x1024 .f32) (acc : Vec Ideal S2048x64 .f32) (p : Fin 2048) (r : Fin 64) :
    k0_pay5 (F := Ideal) x d acc (ix2 p r) = acc (ix2 p r) + ∑ k : Fin 1024, x (ix2 p k) * d (ix2 r k) := by
  unfold k0_pay5 k0_pay3
  rw [shapeCast_self, addf_apply]
  refine congrArg (acc (ix2 p r) + ·) ?_
  exact (mm5_apply _ _ p r).trans (Finset.sum_congr rfl fun k _ => rfl)

/-- The final value: the main accumulator scaled by its column's scale (the scale column `[1024, 1]` is read as
    a row and repeated down the rows, so column `q` meets `s (q, 0)`), plus the low-rank accumulator's row `p`
    against the up projection's row `q`. -/
theorem pay6_apply (s : Vec Ideal S1024x1 .f32) (acc : Vec Ideal S2048x1024 .f32) (u : Vec Ideal S1024x64 .f32) (xd : Vec Ideal S2048x64 .f32) (p : Fin 2048) (q : Fin 1024) :
    k0_pay6 (F := Ideal) s acc u xd (ix2 p q) = acc (ix2 p q) * s (ix2 q (0 : Fin 1)) + ∑ r : Fin 64, xd (ix2 p r) * u (ix2 q r) := by
  unfold k0_pay6
  rw [addf_apply, mulf_apply]
  have hs : broadcastTo S2048x1024 (shapeCast S1x1024 s shapeCasts_S1024x1_S1x1024) broadcasts_S1x1024_S2048x1024 (ix2 p q)
      = s (ix2 q (0 : Fin 1)) :=
    (broadcastTo_1b_ab_apply _ broadcasts_S1x1024_S2048x1024 p q).trans
      (shapeCast_a1_1a_apply s shapeCasts_S1024x1_S1x1024 (0 : Fin 1) q)
  have hm := (mm6_apply (truncf .bf16 xd bitsLt_bf16_f32) (truncf .bf16 u bitsLt_bf16_f32) p q).trans
    (Finset.sum_congr rfl fun (r : Fin 64) _ => (rfl : _ = xd (ix2 p r) * u (ix2 q r)))
  exact (congrArg₂ (· + ·) (congrArg (acc (ix2 p q) * ·) hs) hm)

end Cert.KernelIdeal.Payloads

end
-- ==== Proof.KernelAcc.lean ====
/-
  The two accumulators carried across the reduction axis, after every grid point, entry by entry.

  Within one run of four consecutive points (same row block, same output-channel block, reduction chunk
  `k = 0, 1, 2, 3`) the main accumulator after chunk `k` holds, at `(p, q)`, the sum of the first `k + 1` chunk
  products of row `2048 * I + p` of `x` with row `1024 * J + q` of the integer weights; the low-rank accumulator the
  same against the rows of `D`. By induction on the point: the first chunk starts from zero, every other chunk adds
  to what the point before left. At the last chunk the output block is the scaled main accumulator plus the low-rank
  accumulator against `U`'s block.
-/
import proofs.«165027_j39822936768839_1_alg».proof.Proof.Gen.KernelIdeal.Frame
import proofs.«165027_j39822936768839_1_alg».proof.Proof.KernelPieces
import proofs.«165027_j39822936768839_1_alg».proof.Proof.KernelBlocks
import proofs.«165027_j39822936768839_1_alg».proof.Proof.KernelPayloads
import proofs.«165027_j39822936768839_1_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.KernelIdeal.Pieces Cert.KernelIdeal.Blocks Cert.KernelIdeal.Payloads Cert.Spec

variable (m : (ℓ : Loc nD τ sig) → Buf (Elt Ideal) ℓ)

/-- The blocks the body loads at point `t`, at their literal types. -/
abbrev xblk (c : Dev nD) (t : Fin cfg0.N) : Vec Ideal S2048x1024 .f32 := iblk m c 0 t
abbrev qblk (c : Dev nD) (t : Fin cfg0.N) : Vec Ideal S1024x1024 .i32 := iblk m c 1 t
abbrev sblk (c : Dev nD) (t : Fin cfg0.N) : Vec Ideal S1024x1 .f32 := iblk m c 2 t
abbrev ublk (c : Dev nD) (t : Fin cfg0.N) : Vec Ideal S1024x64 .f32 := iblk m c 3 t
abbrev dblk (c : Dev nD) (t : Fin cfg0.N) : Vec Ideal S64x1024 .f32 := iblk m c 4 t

/-- The main accumulator and the low-rank accumulator after point `n`. -/
abbrev accMain (c : Dev nD) (n : ℕ) (h : n < cfg0.N) : Vec Ideal S2048x1024 .f32 := (outsAt0 m c n h).2.1
abbrev accLow (c : Dev nD) (n : ℕ) (h : n < cfg0.N) : Vec Ideal S2048x64 .f32 := (outsAt0 m c n h).2.2

/-! ## One point's step, on whole blocks -/

theorem main_first (c : Dev nD) (t : Fin cfg0.N) (h0 : t.val % 4 = 0) :
    accMain m c t.val t.isLt = k0_pay4 (xblk m c t) (qblk m c t) (k0_pay1 (F := Ideal)) := by
  have h1 : ¬t.val % 4 = 3 := by omega
  show (outsAt0 m c t.val t.isLt).2.1 = _
  rw [outsAt0_A m c t h0 h1]
  dsimp only
  exact first_main (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem low_first (c : Dev nD) (t : Fin cfg0.N) (h0 : t.val % 4 = 0) :
    accLow m c t.val t.isLt = k0_pay5 (xblk m c t) (dblk m c t) (k0_pay2 (F := Ideal)) := by
  have h1 : ¬t.val % 4 = 3 := by omega
  show (outsAt0 m c t.val t.isLt).2.2 = _
  rw [outsAt0_A m c t h0 h1]
  dsimp only
  exact first_low (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem main_next (c : Dev nD) (n : ℕ) (h : n + 1 < cfg0.N) (h0 : ¬(n + 1) % 4 = 0) :
    accMain m c (n + 1) h = k0_pay4 (xblk m c ⟨n + 1, h⟩) (qblk m c ⟨n + 1, h⟩) (accMain m c n (Nat.lt_of_succ_lt h)) := by
  show (outsAt0 m c (n + 1) h).2.1 = _
  by_cases h1 : (n + 1) % 4 = 3
  · rw [outsAt0_C m c ⟨n + 1, h⟩ h0 h1]
    dsimp only
    exact last_main (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact mid_main (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

theorem low_next (c : Dev nD) (n : ℕ) (h : n + 1 < cfg0.N) (h0 : ¬(n + 1) % 4 = 0) :
    accLow m c (n + 1) h = k0_pay5 (xblk m c ⟨n + 1, h⟩) (dblk m c ⟨n + 1, h⟩) (accLow m c n (Nat.lt_of_succ_lt h)) := by
  show (outsAt0 m c (n + 1) h).2.2 = _
  by_cases h1 : (n + 1) % 4 = 3
  · rw [outsAt0_C m c ⟨n + 1, h⟩ h0 h1]
    dsimp only
    exact last_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact mid_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

/-- At the last chunk of a run the output block is formed from the two accumulators as that point leaves them. -/
theorem out_last (c : Dev nD) (t : Fin cfg0.N) (h1 : t.val % 4 = 3) :
    (outsAt0 m c t.val t.isLt).1 = k0_pay6 (sblk m c t) (accMain m c t.val t.isLt) (ublk m c t) (accLow m c t.val t.isLt) := by
  have h0 : ¬t.val % 4 = 0 := by omega
  show _ = k0_pay6 (sblk m c t) (outsAt0 m c t.val t.isLt).2.1 (ublk m c t) (outsAt0 m c t.val t.isLt).2.2
  rw [outsAt0_C m c t h0 h1]
  dsimp only
  rw [last_main, last_low]
  exact last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h' => h0 ((hcond0_0 t).mp h')) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-! ## The blocks' entries, in the arrays -/

theorem xblk_at (c : Dev nD) (t : Fin cfg0.N) (a : Fin 2048) (b : Fin 1024) :
    xblk m c t (ix2 a b) = at2 (argX m c) (2048 * (t.val / 16) + a.val) (1024 * (t.val % 4) + b.val) := xblk_apply m c t a b
theorem qblk_at (c : Dev nD) (t : Fin cfg0.N) (a : Fin 1024) (b : Fin 1024) :
    qblk m c t (ix2 a b) = at2 (argQ m c) (1024 * (t.val / 4 % 4) + a.val) (1024 * (t.val % 4) + b.val) := qblk_apply m c t a b
theorem sblk_at (c : Dev nD) (t : Fin cfg0.N) (a : Fin 1024) (b : Fin 1) :
    sblk m c t (ix2 a b) = at2 (argS m c) (1024 * (t.val / 4 % 4) + a.val) (0 + b.val) := sblk_apply m c t a b
theorem ublk_at (c : Dev nD) (t : Fin cfg0.N) (a : Fin 1024) (b : Fin 64) :
    ublk m c t (ix2 a b) = at2 (argU m c) (1024 * (t.val / 4 % 4) + a.val) (0 + b.val) := ublk_apply m c t a b
theorem dblk_at (c : Dev nD) (t : Fin cfg0.N) (a : Fin 64) (b : Fin 1024) :
    dblk m c t (ix2 a b) = at2 (argD m c) (0 + a.val) (1024 * (t.val % 4) + b.val) := dblk_apply m c t a b

/-! ## One chunk's contribution, entry by entry -/

/-- The chunk product the body adds to the main accumulator at point `t`. -/
theorem main_term (c : Dev nD) (t : Fin cfg0.N) (p : Fin 2048) (q : Fin 1024) :
    ∑ k : Fin 1024, xblk m c t (ix2 p k) * ((((qblk m c t) (ix2 q k)).toInt : ℝ) : EReal)
      = mainChunk (argX m c) (argQ m c) (2048 * (t.val / 16) + p.val) (1024 * (t.val / 4 % 4) + q.val) (t.val % 4) := by
  unfold mainChunk
  refine Finset.sum_congr rfl fun k _ => ?_
  rw [xblk_at m c t p k, qblk_at m c t q k]

/-- The chunk product the body adds to the low-rank accumulator at point `t`. -/
theorem low_term (c : Dev nD) (t : Fin cfg0.N) (p : Fin 2048) (r : Fin 64) :
    ∑ k : Fin 1024, xblk m c t (ix2 p k) * (dblk m c t) (ix2 r k)
      = lowChunk (argX m c) (argD m c) (2048 * (t.val / 16) + p.val) r.val (t.val % 4) := by
  unfold lowChunk
  refine Finset.sum_congr rfl fun k _ => ?_
  rw [xblk_at m c t p k, dblk_at m c t r k, Nat.zero_add]

/-! ## The accumulators after every point -/

theorem accMain_apply (c : Dev nD) : ∀ (n : ℕ) (h : n < cfg0.N) (p : Fin 2048) (q : Fin 1024),
    accMain m c n h (ix2 p q)
      = ∑ s ∈ Finset.range (n % 4 + 1), mainChunk (argX m c) (argQ m c) (2048 * (n / 16) + p.val) (1024 * (n / 4 % 4) + q.val) s
  | 0, h, p, q => by
    rw [main_first m c ⟨0, h⟩ rfl, pay4_apply, pay1_apply, zero_add, main_term m c ⟨0, h⟩ p q]
    exact (Finset.sum_range_one _).symm
  | n + 1, h, p, q => by
    by_cases h0 : (n + 1) % 4 = 0
    · rw [main_first m c ⟨n + 1, h⟩ h0, pay4_apply, pay1_apply, zero_add, main_term m c ⟨n + 1, h⟩ p q]
      show mainChunk _ _ _ _ ((n + 1) % 4) = ∑ s ∈ Finset.range ((n + 1) % 4 + 1), _
      rw [h0]
      exact (Finset.sum_range_one _).symm
    · have e16 : (n + 1) / 16 = n / 16 := by omega
      have e4 : (n + 1) / 4 % 4 = n / 4 % 4 := by omega
      have em : (n + 1) % 4 = n % 4 + 1 := by omega
      rw [main_next m c n h h0, pay4_apply, accMain_apply c n (Nat.lt_of_succ_lt h) p q, main_term m c ⟨n + 1, h⟩ p q]
      show _ + mainChunk _ _ (2048 * ((n + 1) / 16) + p.val) (1024 * ((n + 1) / 4 % 4) + q.val) ((n + 1) % 4) = _
      rw [e16, e4, em, Finset.sum_range_succ _ (n % 4 + 1)]

theorem accLow_apply (c : Dev nD) : ∀ (n : ℕ) (h : n < cfg0.N) (p : Fin 2048) (r : Fin 64),
    accLow m c n h (ix2 p r)
      = ∑ s ∈ Finset.range (n % 4 + 1), lowChunk (argX m c) (argD m c) (2048 * (n / 16) + p.val) r.val s
  | 0, h, p, r => by
    rw [low_first m c ⟨0, h⟩ rfl, pay5_apply, pay2_apply, zero_add, low_term m c ⟨0, h⟩ p r]
    exact (Finset.sum_range_one _).symm
  | n + 1, h, p, r => by
    by_cases h0 : (n + 1) % 4 = 0
    · rw [low_first m c ⟨n + 1, h⟩ h0, pay5_apply, pay2_apply, zero_add, low_term m c ⟨n + 1, h⟩ p r]
      show lowChunk _ _ _ _ ((n + 1) % 4) = ∑ s ∈ Finset.range ((n + 1) % 4 + 1), _
      rw [h0]
      exact (Finset.sum_range_one _).symm
    · have e16 : (n + 1) / 16 = n / 16 := by omega
      have em : (n + 1) % 4 = n % 4 + 1 := by omega
      rw [low_next m c n h h0, pay5_apply, accLow_apply c n (Nat.lt_of_succ_lt h) p r, low_term m c ⟨n + 1, h⟩ p r]
      show _ + lowChunk _ _ (2048 * ((n + 1) / 16) + p.val) r.val ((n + 1) % 4) = _
      rw [e16, em, Finset.sum_range_succ _ (n % 4 + 1)]

/-! ## The output block at the last chunk of a run -/

/-- At a point with `t % 4 = 3` the output block holds, at `(p, q)`, the kernel's result at row
    `2048 * (t / 16) + p` and output channel `1024 * (t / 4 % 4) + q`. -/
theorem out_apply (c : Dev nD) (t : Fin cfg0.N) (h1 : t.val % 4 = 3) (p : Fin 2048) (q : Fin 1024) :
    ((outsAt0 m c t.val t.isLt).1 : Vec Ideal S2048x1024 .f32) (ix2 p q)
      = kernelAt (argX m c) (argS m c) (argU m c) (argD m c) (argQ m c) (2048 * (t.val / 16) + p.val) (1024 * (t.val / 4 % 4) + q.val) := by
  rw [out_last m c t h1, pay6_apply, accMain_apply m c t.val t.isLt p q, sblk_at m c t q (0 : Fin 1)]
  unfold kernelAt
  rw [h1]
  refine congrArg₂ (· + ·) rfl ?_
  refine Finset.sum_congr rfl fun r _ => ?_
  rw [accLow_apply m c t.val t.isLt p r, ublk_at m c t q r, h1, Nat.zero_add]

end Cert.KernelIdeal.Acc

end
-- ==== Proof.KernelResult.lean ====
/-
  The kernel's result array. Only the last chunk of each run of four grid points writes its output block back; that
  block is the kernel's result restricted to rows `2048 * I …` and output channels `1024 * J …`, and the sixteen
  blocks `(I, J)` tile the `8192 × 4096` array, so the array ends holding `Spec.kernelResult` of the five arguments.
-/
import proofs.«165027_j39822936768839_1_alg».proof.Proof.Gen.KernelIdeal.Value
import proofs.«165027_j39822936768839_1_alg».proof.Proof.KernelAcc

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen Cert.KernelIdeal.Blocks Cert.KernelIdeal.Acc Cert.Spec

variable (m : (ℓ : Loc nD τ sig) → Buf (Elt Ideal) ℓ) (ρ : Dev nD → PrngReg)

/-- What the result array ends holding. -/
abbrev result (c : Dev nD) : Buf (Elt Ideal) ((c : Thread nD τ).loc main_v0) :=
  kernelResult (argX m c) (argS m c) (argU m c) (argD m c) (argQ m c)

/-- The block a flushing point writes back is the result read through that block. -/
theorem flushed_eq (c : Dev nD) (t : Fin cfg0.N) (hf : (cfg0.win 5).flush t = true) :
    (dats m 0 c).flushed 5 t = ((cfg0.win 5).blk t).view.read (Elt Ideal) (result m c) := by
  have h1 : t.val % 4 = 3 := (flush0_5 t).mp hf
  have hi := idx5 t
  rw [Cert.KernelIdeal.Value.flushed5]
  funext j
  obtain ⟨p, q, rfl⟩ : ∃ (p : Fin 2048) (q : Fin 1024), j = ix2 p q := ⟨j 0, j 1, eq_ix2 j⟩
  rw [View.read_apply]
  show ((outsAt0 m c t.val t.isLt).1 : Vec Ideal S2048x1024 .f32) (ix2 p q)
    = kernelAt (argX m c) (argS m c) (argU m c) (argD m c) (argQ m c)
        ((((cfg0.win 5).blk t).view.emb (ix2 p q)) 0).val ((((cfg0.win 5).blk t).view.emb (ix2 p q)) 1).val
  rw [out_apply m c t h1 p q]
  have e0 : ((((cfg0.win 5).blk t).view.emb (ix2 p q)) 0).val = 2048 * (t.val / 16) + p.val := by
    show win0_5.index t 0 * 2048 + 1 * p.val = _
    rw [hi.1]; omega
  have e1 : ((((cfg0.win 5).blk t).view.emb (ix2 p q)) 1).val = 1024 * (t.val / 4 % 4) + q.val := by
    show win0_5.index t 1 * 1024 + 1 * q.val = _
    rw [hi.2]; omega
  rw [e0, e1]

/-- An index is in point `t`'s output block iff each coordinate is in the block's range. -/
theorem mem_blk (t : Fin cfg0.N) (i : S8192x4096.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_v0).slice (win0_5.rect t)).set ↔ _
  rw [View.set_slice_whole, Rect.mem_set_unit]
  exact Iff.rfl

/-- Every index of the array lies in the block written back at the last chunk of its run. -/
theorem cover (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 64 := N_0
  obtain ⟨t, ht⟩ : ∃ t : Fin cfg0.N, t.val = 16 * ((i 0).val / 2048) + 4 * ((i 1).val / 1024) + 3 :=
    ⟨⟨16 * ((i 0).val / 2048) + 4 * ((i 1).val / 1024) + 3, by rw [hN]; omega⟩, rfl⟩
  have hi := idx5 t
  refine ⟨t, (flush0_5 t).mpr (by omega), ?_⟩
  rw [mem_blk]
  intro a
  match a with
  | ⟨0, _⟩ =>
    show win0_5.index t 0 * 2048 ≤ (i 0).val ∧ (i 0).val < win0_5.index t 0 * 2048 + 2048
    rw [hi.1]; omega
  | ⟨1, _⟩ =>
    show win0_5.index t 1 * 1024 ≤ (i 1).val ∧ (i 1).val < win0_5.index t 1 * 1024 + 1024
    rw [hi.2]; omega

/-- The result array after the run. -/
theorem final (c : Dev nD) : (dats m 0 c).arrAt 5 cfg0.N = result m c :=
  (dats m 0 c).arrAt_eq_of_cover 5 (result m c) (flushed_eq m c) cover

/-- The kernel's run: the result array at `Spec.kernelResult` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Result

end
-- ==== Proof.RefValue.lean ====
/-
  The reference's result, index by index: the dequantized weight `Q[o, i] * scales[o]`, transposed, contracted with
  row `n` of `x` over all 4096 features, plus the rank-64 correction `(x · Dᵀ) · Uᵀ` — the function `Spec.refResult`
  of the five arguments.
-/
import proofs.«165027_j39822936768839_1_alg».proof.Proof.Gen.ReferenceIdeal.Read
import proofs.«165027_j39822936768839_1_alg».proof.Proof.Spec

noncomputable section

namespace Cert.ReferenceIdeal.RefValue

open Cert.ReferenceIdeal Cert.ReferenceIdeal.Read Idealize.ShloMosaic Idealize.ShloMosaic.ValueIdx
open scoped BigOperators

theorem lidx4 (n : Fin 8192) (o : Fin 4096) (k : Fin 4096) : lidx_main_v4 (ix2 n o) k = ix2 n k :=
  funext fun a => Fin.ext (by match a with | ⟨0, _⟩ => rfl | ⟨1, _⟩ => rfl)

theorem ridx4 (n : Fin 8192) (o : Fin 4096) (k : Fin 4096) : idx_main_v3 (ridx_main_v4 (ix2 n o) k) = ix2 o k :=
  funext fun a => Fin.ext (by match a with | ⟨0, _⟩ => rfl | ⟨1, _⟩ => rfl)

theorem sidx (o : Fin 4096) (k : Fin 4096) : idx_main_v1 (ix2 o k) = ix2 o (0 : Fin 1) :=
  funext fun a => Fin.ext (by match a with | ⟨0, _⟩ => rfl | ⟨1, _⟩ => rfl)

theorem lidx8 (n : Fin 8192) (o : Fin 4096) (r : Fin 64) : lidx_main_v8 (ix2 n o) r = ix2 n r :=
  funext fun a => Fin.ext (by match a with | ⟨0, _⟩ => rfl | ⟨1, _⟩ => rfl)

theorem ridx8 (n : Fin 8192) (o : Fin 4096) (r : Fin 64) : idx_main_v7 (ridx_main_v8 (ix2 n o) r) = ix2 o r :=
  funext fun a => Fin.ext (by match a with | ⟨0, _⟩ => rfl | ⟨1, _⟩ => rfl)

theorem lidx6 (n : Fin 8192) (r : Fin 64) (k : Fin 4096) : lidx_main_v6 (ix2 n r) k = ix2 n k :=
  funext fun a => Fin.ext (by match a with | ⟨0, _⟩ => rfl | ⟨1, _⟩ => rfl)

theorem ridx6 (n : Fin 8192) (r : Fin 64) (k : Fin 4096) : idx_main_v5 (ridx_main_v6 (ix2 n r) k) = ix2 r k :=
  funext fun a => Fin.ext (by match a with | ⟨0, _⟩ => rfl | ⟨1, _⟩ => rfl)

/-- The reference's last stage is `Spec.refResult` of the arguments. -/
theorem result_eq (x0 : (⟨S8192x4096, .f32⟩ : BufTy).Contents (Elt Ideal)) (x1 : (⟨S4096x1, .f32⟩ : BufTy).Contents (Elt Ideal))
    (x2 : (⟨S4096x64, .f32⟩ : BufTy).Contents (Elt Ideal)) (x3 : (⟨S64x4096, .f32⟩ : BufTy).Contents (Elt Ideal))
    (x4 : (⟨S4096x4096, .i32⟩ : BufTy).Contents (Elt Ideal)) :
    val_main_v9 (F := Ideal) x0 x1 x2 x3 x4 = Cert.Spec.refResult x0 x1 x2 x3 x4 := by
  funext j
  obtain ⟨n, o, rfl⟩ : ∃ (n : Fin 8192) (o : Fin 4096), j = ix2 n o := ⟨j 0, j 1, eq_ix2 j⟩
  rw [val_main_v9_apply, val_main_v4_apply, val_main_v8_apply]
  show _ + _ = Cert.Spec.refAt x0 x1 x2 x3 x4 n o
  unfold Cert.Spec.refAt
  refine congrArg₂ (· + ·) ?_ ?_
  · refine Finset.sum_congr rfl fun k _ => ?_
    rw [val_main_v3_apply, val_main_v2_apply, val_main_v0_apply, val_main_v1_apply, lidx4, ridx4, sidx]
    rfl
  · refine Finset.sum_congr rfl fun r _ => ?_
    rw [val_main_v7_apply, val_main_v6_apply, lidx8, ridx8]
    refine congrArg (· * _) ?_
    refine Finset.sum_congr rfl fun k _ => ?_
    rw [val_main_v5_apply, lidx6, ridx6]

end Cert.ReferenceIdeal.RefValue

end
-- ==== Proof.Finite.lean ====
/-
  From "every float input is finite" to "every entry is a real number".

  The precondition compares the absolute value of every entry of each float argument with `+∞` and takes the
  conjunction of all the comparisons. On the extended reals `|x| = max x (-x)`, and `max x (-x) < ⊤` rules out both
  `x = ⊤` and `x = ⊥`; an extended real that is neither infinity is (the image of) a real number.
-/
import proofs.«165027_j39822936768839_1_alg».proof.Pre_finite_inputs
import Idealize.ShloMosaic.PureOps.Ideal
import Idealize.ShloMosaic.Lib.ReduceAll
import Idealize.ShloMosaic.Lib.Affine
import Idealize.ShloMosaic.Lib.ValueIdx

namespace Cert.Finite

open Idealize.ShloMosaic Cert.Pre_finite_inputs

/-- The scalar shape has exactly one index. -/
private instance subsingleton_scalar_idx : Subsingleton S_.Idx := ⟨fun a b => funext fun d => d.elim0⟩

/-- An extended real whose absolute value lies strictly below `+∞` is a real number: it is neither `⊤` nor `⊥`. -/
private theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` denotes `+∞`. -/
private theorem ofBits_inf : Ideal.ofBits .f32 0x7F800000#32 = ⊤ := by simp [Ideal.ofBits, Ideal.ieee]

/-- One entry of the comparison `|x| < +∞` being true says that `x` is a real number. -/
private theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : BitVec.ofBool (decide (max (x : EReal) (-(x : EReal)) < Ideal.ofBits .f32 0x7F800000#32)) = 1#1 := h
  rw [ofBits_inf] at h'
  by_contra hn
  rw [decide_eq_false hn] at h'
  exact absurd h' (by decide)

/-- Under the precondition every activation and every scale is a real number. -/
theorem real_of_pre [Cert.Pre_finite_inputs.Facts]
    (X : FVec Ideal S8192x4096 .f32) (S : FVec Ideal S4096x1 .f32) (U : FVec Ideal S4096x64 .f32) (D : FVec Ideal S64x4096 .f32)
    (Q : IVec S4096x4096 32) (h : Cert.Pre_finite_inputs.fn (F := Ideal) X S U D Q = fun _ => 1#1) :
    (∀ j : S8192x4096.Idx, ∃ r : ℝ, X j = (r : EReal)) ∧ (∀ j : S4096x1.Idx, ∃ r : ℝ, S j = (r : EReal)) := by
  have h0 := congrFun h ValueIdx.ix0
  dsimp only [fn, fn_part1, andi] at h0
  obtain ⟨h123, -⟩ := IntOp.andi_eq_one.1 h0
  obtain ⟨h12, -⟩ := IntOp.andi_eq_one.1 h123
  obtain ⟨hX, hS⟩ := IntOp.andi_eq_one.1 h12
  exact ⟨fun j => real_of_cmp (X j) (Host.reduce_andi_all _ _ _ _ _ hX j),
    fun j => real_of_cmp (S j) (Host.reduce_andi_all _ _ _ _ _ hS j)⟩

end Cert.Finite
-- ==== Proof.lean ====
/-
  The claim: the quantized-weight projection with a rank-64 correction,

      out[n, o] = (x · Qᵀ)[n, o] * scales[o] + ((x · Dᵀ) · Uᵀ)[n, o],

  as the kernel computes it (the contraction over the 4096 input features accumulated in four chunks, the scale
  applied to the finished sum) equals the reference (the weight dequantized first, one contraction) on the extended
  reals whenever the float inputs are finite: the integer weights are real numbers, the activations and the scales
  are real by the precondition, and a real factor distributes over a finite sum of real products.

  The three frames are the generated frame runs (the reference's: its generated run with the result dropped); the
  idealization rewrote nothing, so its soundness statement is trivial; the value claim sets the kernel's result
  array (`KernelIdeal.Result.run`) beside the reference's run read index by index (`ReferenceIdeal.RefValue.result_eq`)
  and joins them by `Spec.kernelResult_eq_refResult`.
-/
import proofs.«165027_j39822936768839_1_alg».proof.Defs
import proofs.«165027_j39822936768839_1_alg».proof.Proof.Gen.Kernel
import proofs.«165027_j39822936768839_1_alg».proof.Proof.Gen.Kernel.Skeleton
import proofs.«165027_j39822936768839_1_alg».proof.Proof.Gen.Kernel.Launch
import proofs.«165027_j39822936768839_1_alg».proof.Proof.Gen.Kernel.Points
import proofs.«165027_j39822936768839_1_alg».proof.Proof.Gen.Kernel.Frame
import proofs.«165027_j39822936768839_1_alg».proof.Proof.Gen.KernelIdeal
import proofs.«165027_j39822936768839_1_alg».proof.Proof.Gen.KernelIdeal.Skeleton
import proofs.«165027_j39822936768839_1_alg».proof.Proof.Gen.KernelIdeal.Launch
import proofs.«165027_j39822936768839_1_alg».proof.Proof.Gen.KernelIdeal.Points
import proofs.«165027_j39822936768839_1_alg».proof.Proof.Gen.KernelIdeal.Frame
import proofs.«165027_j39822936768839_1_alg».proof.Proof.Gen.ReferenceIdeal
import proofs.«165027_j39822936768839_1_alg».proof.Proof.Gen.Pre_finite_inputs
import proofs.«165027_j39822936768839_1_alg».proof.Proof.Gen.KernelIdeal.Value
import proofs.«165027_j39822936768839_1_alg».proof.Proof.Gen.ReferenceIdeal.Run
import proofs.«165027_j39822936768839_1_alg».proof.Proof.Gen.ReferenceIdeal.Read
import proofs.«165027_j39822936768839_1_alg».proof.Proof.KernelResult
import proofs.«165027_j39822936768839_1_alg».proof.Proof.RefValue
import proofs.«165027_j39822936768839_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel's at `Spec.kernelResult` of its arguments, the
    reference's at `Spec.refResult` of arguments that agree with them, and under the precondition the two functions
    coincide. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hS⟩ := Cert.Finite.real_of_pre _ _ _ _ _ (hpre c)
  rw [Cert.ReferenceIdeal.Read.val_main_v9_eq, Cert.ReferenceIdeal.RefValue.result_eq,
    (hagree c).1, (hagree c).2.1, (hagree c).2.2.1, (hagree c).2.2.2.1, (hagree c).2.2.2.2]
  exact (Cert.Spec.kernelResult_eq_refResult _ _ _ _ _ hX hS).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
